-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S2x524288 : Shape := ⟨2, ![2, 524288]⟩
abbrev S3x16 : Shape := ⟨2, ![3, 16]⟩
abbrev S16 : Shape := ⟨1, ![16]⟩
abbrev S16x16 : Shape := ⟨2, ![16, 16]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  reducesTo_S_S_d : S_.ReducesTo [] S_

variable [Facts]

def fn_part1 {F : FTy → Type} [FloatOps F] (main_arg5 : FVec F S16 .f32) (main_arg6 : FVec F S_ .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S16384x3 .f32) (main_arg1 : IVec S2x524288 32) (main_arg2 : FVec F S3x16 .f32) (main_arg3 : FVec F S16 .f32) (main_arg4 : FVec F S16x16 .f32) (main_arg5 : FVec F S16 .f32) (main_arg6 : FVec F S_ .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_v13 main_v16
-- ==== Kernel.lean ====
abbrev S16384x3 : Shape := ⟨2, ![16384, 3]⟩
abbrev S2x524288 : Shape := ⟨2, ![2, 524288]⟩
abbrev S3x16 : Shape := ⟨2, ![3, 16]⟩
abbrev S16 : Shape := ⟨1, ![16]⟩
abbrev S16x16 : Shape := ⟨2, ![16, 16]⟩
abbrev S_ : Shape := ⟨0, ![]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S16384x16 : Shape := ⟨2, ![16384, 16]⟩
abbrev S1x16 : Shape := ⟨2, ![1, 16]⟩
abbrev S16384x16384 : Shape := ⟨2, ![16384, 16384]⟩
abbrev S2048x16 : Shape := ⟨2, ![2048, 16]⟩
abbrev S2048x2048 : Shape := ⟨2, ![2048, 2048]⟩
abbrev S16x2048 : Shape := ⟨2, ![16, 2048]⟩

abbrev nBuf : Space → Nat
  | .hbm => 44
  | .vmem => 6
  | .smem => 0
  | _ => 0

abbrev bufTy : (tb : Table) → Fin (tcTables nBuf tb) → BufTy
  | .hbm, ⟨0, _⟩ => ⟨S16384x3, .f32⟩
  | .hbm, ⟨1, _⟩ => ⟨S2x524288, .i32⟩
  | .hbm, ⟨2, _⟩ => ⟨S3x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x3, .f32⟩
  | .hbm, ⟨20, _⟩ => ⟨S_, .f32⟩
  | .hbm, ⟨21, _⟩ => ⟨S16384x3, .f32⟩
  | .hbm, ⟨22, _⟩ => ⟨S524288x1, .i32⟩
  | .hbm, ⟨23, _⟩ => ⟨S16384x3, .f32⟩
  | .hbm, ⟨24, _⟩ => ⟨S_, .f32⟩
  | .hbm, ⟨25, _⟩ => ⟨S_, .f32⟩
  | .hbm, ⟨26, _⟩ => ⟨S16384x3, .f32⟩
  | .hbm, ⟨27, _⟩ => ⟨S16384x3, .f32⟩
  | .hbm, ⟨28, _⟩ => ⟨S16384x3, .f32⟩
  | .hbm, ⟨29, _⟩ => ⟨S16384x16, .f32⟩
  | .hbm, ⟨30, _⟩ => ⟨S1x16, .f32⟩
  | .hbm, ⟨31, _⟩ => ⟨S16384x16, .f32⟩
  | .hbm, ⟨32, _⟩ => ⟨S16384x16, .f32⟩
  | .hbm, ⟨33, _⟩ => ⟨S_, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S_, .f32⟩
  | .hbm, ⟨41, _⟩ => ⟨S16384x16, .f32⟩
  | .hbm, ⟨42, _⟩ => ⟨S16384x16, .f32⟩
  | .hbm, ⟨43, _⟩ => ⟨S16384x16384, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x2048, .f32⟩
  | .local _ .vmem, ⟨5, _⟩ => ⟨S2048x2048, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x3 : S_.BroadcastsInDim S16384x3 (![] : Fin 0 → Fin S16384x3.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  bitsLt_bf16_f32 : FTy.bits .bf16 < FTy.bits .f32
  transposes_S2048x16_p1_0_S16x2048 : S2048x16.Transposes [1, 0] S16x2048
  inb_S2048x2048_S2048x2048_0_0 : ∀ a, (![0, 0] : Fin 2 → Nat) a + S2048x2048.size a ≤ S2048x2048.size a
  h_S2048x2048 : 0 < S2048x2048.numel
  gather_S16384x3_S524288x1_S524288x3_1_0_n_n_0_1_13_wf : GatherDims.WF S16384x3 S524288x1 S524288x3 [1] [0] [] [0] [] 1 ![1, 3]
  scatter_S16384x3_S524288x1_S524288x3_1_0_0_1_wf : ScatterDims.WF S16384x3 S524288x1 S524288x3 [1] [0] [0] 1
  dot_S16384x3_S3x16_S16384x16_1_0_0_1_n_n_wf : DotDims.WF S16384x3 S3x16 S16384x16 [1] [0] [0] [1] [] []
  dot_S16384x16_S16x16_S16384x16_1_0_0_1_n_n_wf : DotDims.WF S16384x16 S16x16 S16384x16 [1] [0] [0] [1] [] []
  dot_S2048x16_S16x2048_S2048x2048_1_0_0_1_n_n_wf : DotDims.WF S2048x16 S16x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S16384x16.size a
  hwx0_0 : ∀ i : grid0.Coords, EltTy.bits .f32 = 32 ∨ (Rect.block (s := S16384x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x16384.size a
  hwx0_2 : ∀ i : grid0.Coords, EltTy.bits .f32 = 32 ∨ (Rect.block (s := S16384x16384) S2048x2048.size (cc0_transform_2 i) (hinb0_2 i)).WholeWords (EltTy.packing .f32)

variable [Facts₀]

def gather_S16384x3_S524288x1_S524288x3_1_0_n_n_0_1_13 : GatherDims S16384x3 S524288x1 S524288x3 where
  offsetDims := [1]
  collapsedSliceDims := [0]
  operandBatchingDims := []
  startIndicesBatchingDims := []
  startIndexMap := [0]
  indexVectorDim := 1
  sliceSizes := ![1, 3]
  wf := gather_S16384x3_S524288x1_S524288x3_1_0_n_n_0_1_13_wf
def scatter_S16384x3_S524288x1_S524288x3_1_0_0_1 : ScatterDims S16384x3 S524288x1 S524288x3 where
  updateWindowDims := [1]
  insertedWindowDims := [0]
  scatterDimsToOperandDims := [0]
  indexVectorDim := 1
  wf := scatter_S16384x3_S524288x1_S524288x3_1_0_0_1_wf
def dot_S16384x3_S3x16_S16384x16_1_0_0_1_n_n : DotDims S16384x3 S3x16 S16384x16 where
  lhsContracting := [1]
  rhsContracting := [0]
  lhsNonContracting := [0]
  rhsNonContracting := [1]
  lhsBatch := []
  rhsBatch := []
  wf := dot_S16384x3_S3x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf

abbrev win0_0 : Pipeline.Window sig grid0 :=
  Pipeline.Window.ofSpec (Memref.whole main_v27) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3 : Shape := ⟨2, ![16384, 3]⟩
abbrev S2x524288 : Shape := ⟨2, ![2, 524288]⟩
abbrev S3x16 : Shape := ⟨2, ![3, 16]⟩
abbrev S16 : Shape := ⟨1, ![16]⟩
abbrev S16x16 : Shape := ⟨2, ![16, 16]⟩
abbrev S_ : Shape := ⟨0, ![]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S16384x16 : Shape := ⟨2, ![16384, 16]⟩
abbrev S1x16 : Shape := ⟨2, ![1, 16]⟩
abbrev S16x16384 : Shape := ⟨2, ![16, 16384]⟩
abbrev S16384x16384 : Shape := ⟨2, ![16384, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S2x524288, .i32⟩
  | .hbm, ⟨2, _⟩ => ⟨S3x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x3, .f32⟩
  | .hbm, ⟨20, _⟩ => ⟨S_, .f32⟩
  | .hbm, ⟨21, _⟩ => ⟨S16384x3, .f32⟩
  | .hbm, ⟨22, _⟩ => ⟨S524288x1, .i32⟩
  | .hbm, ⟨23, _⟩ => ⟨S16384x3, .f32⟩
  | .hbm, ⟨24, _⟩ => ⟨S_, .f32⟩
  | .hbm, ⟨25, _⟩ => ⟨S_, .f32⟩
  | .hbm, ⟨26, _⟩ => ⟨S16384x3, .f32⟩
  | .hbm, ⟨27, _⟩ => ⟨S16384x3, .f32⟩
  | .hbm, ⟨28, _⟩ => ⟨S16384x3, .f32⟩
  | .hbm, ⟨29, _⟩ => ⟨S16384x16, .f32⟩
  | .hbm, ⟨30, _⟩ => ⟨S1x16, .f32⟩
  | .hbm, ⟨31, _⟩ => ⟨S16384x16, .f32⟩
  | .hbm, ⟨32, _⟩ => ⟨S16384x16, .f32⟩
  | .hbm, ⟨33, _⟩ => ⟨S_, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S_, .f32⟩
  | .hbm, ⟨41, _⟩ => ⟨S16384x16, .f32⟩
  | .hbm, ⟨42, _⟩ => ⟨S16384x16, .f32⟩
  | .hbm, ⟨43, _⟩ => ⟨S16x16384, .f32⟩
  | .hbm, ⟨44, _⟩ => ⟨S16384x16384, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x3 : S_.BroadcastsInDim S16384x3 (![] : Fin 0 → Fin S16384x3.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  transposes_S16384x16_S16x16384_1_0 : S16384x16.Transposes [1, 0] S16x16384
  gather_S16384x3_S524288x1_S524288x3_1_0_n_n_0_1_13_wf : GatherDims.WF S16384x3 S524288x1 S524288x3 [1] [0] [] [0] [] 1 ![1, 3]
  scatter_S16384x3_S524288x1_S524288x3_1_0_0_1_wf : ScatterDims.WF S16384x3 S524288x1 S524288x3 [1] [0] [0] 1
  dot_S16384x3_S3x16_S16384x16_1_0_0_1_n_n_wf : DotDims.WF S16384x3 S3x16 S16384x16 [1] [0] [0] [1] [] []
  dot_S16384x16_S16x16_S16384x16_1_0_0_1_n_n_wf : DotDims.WF S16384x16 S16x16 S16384x16 [1] [0] [0] [1] [] []
  dot_S16384x16_S16x16384_S16384x16384_1_0_0_1_n_n_wf : DotDims.WF S16384x16 S16x16384 S16384x16384 [1] [0] [0] [1] [] []

variable [Facts₀]

def gather_S16384x3_S524288x1_S524288x3_1_0_n_n_0_1_13 : GatherDims S16384x3 S524288x1 S524288x3 where
  offsetDims := [1]
  collapsedSliceDims := [0]
  operandBatchingDims := []
  startIndicesBatchingDims := []
  startIndexMap := [0]
  indexVectorDim := 1
  sliceSizes := ![1, 3]
  wf := gather_S16384x3_S524288x1_S524288x3_1_0_n_n_0_1_13_wf
def scatter_S16384x3_S524288x1_S524288x3_1_0_0_1 : ScatterDims S16384x3 S524288x1 S524288x3 where
  updateWindowDims := [1]
  insertedWindowDims := [0]
  scatterDimsToOperandDims := [0]
  indexVectorDim := 1
  wf := scatter_S16384x3_S524288x1_S524288x3_1_0_0_1_wf
def dot_S16384x3_S3x16_S16384x16_1_0_0_1_n_n : DotDims S16384x3 S3x16 S16384x16 where
  lhsContracting := [1]
  rhsContracting := [0]
  lhsNonContracting := [0]
  rhsNonContracting := [1]
  lhsBatch := []
  rhsBatch := []
  wf := dot_S16384x3_S3x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x16384_S16384x16384_1_0_0_1_n_n : DotDims S16384x16 S16x16384 S16384x16384 where
  lhsContracting := [1]
  rhsContracting := [0]
  lhsNonContracting := [0]
  rhsNonContracting := [1]
  lhsBatch := []
  rhsBatch := []
  wf := dot_S16384x16_S16x16384_S16384x16384_1_0_0_1_n_n_wf

class Facts : Prop extends Facts₀ where

variable [Facts]
-- ==== Proof.BitsEntry.lean ====
/-
  The kernel's program up to its one kernel region. Four stretches of host operations come first (the
  neighbour sum over the edges, the two affine layers, each followed by a rectifier): when the region is entered
  every buffer holds what those operations leave, `V`, and none of them writes an argument array, so the seven
  arguments are found as launched. The embedding `h` is the buffer the last rectifier writes; both input windows
  of the region read it.
-/
import proofs.«165384_j90950227460159_1_alg».proof.Proof.Gen.Kernel.Launch
import Idealize.ShloMosaic.Lib.Pipeline.Frame

noncomputable section

namespace Cert.Kernel.Entry

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the region is entered: the launch contents after the four stretches of host operations. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program up to the region: the four stretches, run in order, reach the region holding every unscoped buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes buffer `b` when `b` is none of the thirty-six buffers they write. -/
theorem V_of_not_written (c : Dev nD) (b : Ref sig .tc)
    (h : (List.flatten [hostOps0 (F := F), hostOps0_1, hostOps0_2, hostOps0_3]).Forall fun op => Proc.devRef .tc b ∉ op.writes) :
    V m c b = m ((c : Thread nD τ).loc b) :=
  StableHlo.after_of_forall_not_mem (b := Proc.devRef .tc b) _ _ (List.forall_iff_forall_mem.mp h)

end Cert.Kernel.Entry

end
-- ==== Proof.BitsBody.lean ====
/-
  The kernel body at one grid point. The grid is 8 × 8; at point (i, j) the first input window holds band i of the
  embedding (rows 2048·i … 2048·i + 2047), the second band j, and the body stores into the output window the
  2048 × 2048 tile computed from the two bands. The first window's index depends on i alone, so it is fetched once
  every eight points and found in place in between; the second is fetched at every point; the output is written back
  at every point. Both input windows read ONE array, the embedding: each holds half of it, which is enough to read.
-/
import proofs.«165384_j90950227460159_1_alg».proof.Proof.BitsEntry
import proofs.«165384_j90950227460159_1_alg».proof.Proof.Gen.Kernel.Skeleton
import proofs.«165384_j90950227460159_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's buffer holds its band at every point, fetched there or not: where it is not fetched the
    band index has not moved and the body left the band in place. -/
theorem band0_found {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input window's buffer likewise holds its band at every point. -/
theorem band1_found {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The tile the body leaves -/

/-- A whole band: the one rectangle the body loads each input through. -/
abbrev rBand : Rect S2048x16 := Rect.unit (s := S2048x16) ![0, 0] S2048x16.size inb_S2048x16_S2048x16_0_0
/-- A whole tile: the one rectangle the body stores through. -/
abbrev rTile : Rect S2048x2048 := Rect.unit (s := S2048x2048) ![0, 0] S2048x2048.size inb_S2048x2048_S2048x2048_0_0

/-- The output window's buffer after the body, from the two bands: its one store, of the product of the first band
    with the transposed second. -/
def tile (x0 : Vec F S2048x16 .f32) (x1 : Vec F S2048x16 .f32) : Vec F S2048x2048 .f32 :=
  View.canon [⟨rTile, k0_pay1 (View.ld x0 rBand) (View.ld x1 rBand)⟩]

/-- The one store covers the buffer. -/
theorem tile_cover (p0 : Vec F S2048x2048 .f32) (y : S2048x2048.Idx) :
    ∃ pc ∈ ([⟨rTile, p0⟩] : List (View.Piece (Elt F) S2048x2048 .f32)), y ∈ pc.1.set :=
  View.cover_of_tiled [⟨rTile, p0⟩] S2048x2048.size (by rfl) y

/-! ## The body's triple -/

set_option maxHeartbeats 1000000 in
/-- The body on whole staging memrefs, the inputs' at contents `x0`, `x1` and the output's at anything, runs to the
    continuation holding the inputs' as they were and the output's at `tile x0 x1`. (It also loads the output buffer
    before storing; the value is not used.) -/
theorem sound_kernel (c : Dev nD) (E : Set ℕ) (i : grid0.Coords) (arg2 : Memref sig .tc .vmem S2048x16 .f32) (harg2 : arg2.IsWhole) (arg3 : Memref sig .tc .vmem S2048x16 .f32) (harg3 : arg3.IsWhole) (arg4 : Memref sig .tc .vmem S2048x2048 .f32) (harg4 : arg4.IsWhole)
    (x0 : Vec F S2048x16 .f32) (x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__pairwise_kernel i arg2 harg2 arg3 harg3 arg4 harg4) K := by
  simp only [cc0__pairwise_kernel_eq_skeleton]; unfold cc0__pairwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The proof data on core `c`: the arrays as the region finds them; after the body at point `t` each input's buffer
    at its band and the output's at the tile of the two bands; the invariant the scoped buffers the pipeline does not
    stage (there are none); nothing owed; the embedding's array split in halves between the two windows that read it,
    the result's array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  band0_found m (dats m 0 c) (A_eq m c 0) (after0_0 m c) t d
theorem before0_1 (c : Dev nD) (t : Fin cfg0.N) (d) : (dats m 0 c).before 1 t d = iblk m c 1 t :=
  band1_found m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their bands, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.BitsRegion.lean ====
/-
  The whole run of the kernel's program. The region's two input windows read one array, the embedding; the
  launch hands the region that array whole, and it is split in two halves, one per window (reading needs only a part
  of an array; the output's array, written back tile by tile, is held whole). With the body's obligation at every one
  of the 64 grid points this gives the run: every weakly fair execution ends, the result array holds what the 64
  write-backs made of it, and every other unscoped buffer, the seven arguments among them, holds what the region
  found there, which for an argument is its launch contents.
-/
import proofs.«165384_j90950227460159_1_alg».proof.Proof.BitsBody
import Idealize.ShloMosaic.Lib.Pipeline.Frame

set_option maxRecDepth 16384

noncomputable section

namespace Cert.Kernel.Region

open Cert.Kernel Cert.Kernel.Gen Cert.Kernel.Entry Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows name two arrays: the embedding (twice) and the result. -/
theorem arrRefs_eq : Finset.univ.image (Pipeline.arrRef spec0) = ({main_v27, main_v28} : Finset (Ref sig .tc)) := by decide

/-- The embedding's array whole and the result's array whole are the three windows' arrays: the embedding's split in
    its two halves, one for each window that reads it. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hbufs : (Pipeline.arrBufs (Ix := Unit) (Name := ℕ) (U := UR sig nD τ) (Lvl := ℕ) spec0 c (V m c) : sProp 𝕄)
      = iprop((((c.tc : Thread nD τ).loc main_v27) ↦{fullShare} V m c main_v27) ∗ (((c.tc : Thread nD τ).loc main_v28) ↦{fullShare} V m c main_v28)) := by
    unfold Pipeline.arrBufs
    rw [arrRefs_eq, bigSep_insert (by decide), bigSep_singleton]; rfl
  have harrs : (dats m 0 c).arrays ((dats m 0 c).arrAt · 0)
      = iprop((((c.tc : Thread nD τ).loc main_v27) ↦{fullShare.left} V m c main_v27) ∗ (((c.tc : Thread nD τ).loc main_v27) ↦{fullShare.right} V m c main_v27)
          ∗ (((c.tc : Thread nD τ).loc main_v28) ↦{fullShare} V m c main_v28)) := by
    unfold Dat.arrays
    rw [bigSep_W0, (arr_whole0 0).set_eq_univ, (arr_whole0 2).set_eq_univ]; rfl
  rw [hbufs, harrs]
  iintro ⟨H27, H28⟩
  ihave H := (pointsTo_share (PosShare.mem_left_op_right fullShare)).1 $$ H27
  icases H with ⟨Hl, Hr⟩
  isplitl [Hl]; · iexact Hl
  isplitl [Hr]; · iexact Hr
  iexact H28

/-! ## The arguments at the region's entry -/

/-- No host operation before the region writes argument 0: the region finds it as launched. -/
theorem V_main_arg0 (c : Dev nD) : V m c main_arg0 = m ((c : Thread nD τ).loc main_arg0) :=
  V_of_not_written m c main_arg0 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 1: the region finds it as launched. -/
theorem V_main_arg1 (c : Dev nD) : V m c main_arg1 = m ((c : Thread nD τ).loc main_arg1) :=
  V_of_not_written m c main_arg1 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 2: the region finds it as launched. -/
theorem V_main_arg2 (c : Dev nD) : V m c main_arg2 = m ((c : Thread nD τ).loc main_arg2) :=
  V_of_not_written m c main_arg2 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 3: the region finds it as launched. -/
theorem V_main_arg3 (c : Dev nD) : V m c main_arg3 = m ((c : Thread nD τ).loc main_arg3) :=
  V_of_not_written m c main_arg3 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 4: the region finds it as launched. -/
theorem V_main_arg4 (c : Dev nD) : V m c main_arg4 = m ((c : Thread nD τ).loc main_arg4) :=
  V_of_not_written m c main_arg4 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 5: the region finds it as launched. -/
theorem V_main_arg5 (c : Dev nD) : V m c main_arg5 = m ((c : Thread nD τ).loc main_arg5) :=
  V_of_not_written m c main_arg5 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 6: the region finds it as launched. -/
theorem V_main_arg6 (c : Dev nD) : V m c main_arg6 = m ((c : Thread nD τ).loc main_arg6) :=
  V_of_not_written m c main_arg6 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-! ## The run -/

/-- The invariant between points is the scoped buffers the pipeline does not stage, at every point. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- From any memory with zero counters every weakly fair execution of the program ends; the two arrays the windows
    name end at what the 64 write-backs made of them, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [inv_eq]
      iintro ⟨-, H⟩
      iexact H)
    (hout := fun c => by
      rw [inv_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run, read at the result and at the seven arguments: the result array holds what the write-backs made of it,
    the arguments their launch contents. -/
theorem run_values : θ_run defs (onTc (τ := τ) (main (F := F))) ⟨m, fun _ => 0, ρ⟩ (fun r => ∀ c : Dev nD,
      r.2.mem ((c.tc : Thread nD τ).loc main_v28) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

/-- The frame: the program runs to the end and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_values m ρ)

end Cert.Kernel.Region

end
-- ==== Proof.Entry.lean ====
/-
  The kernel's program up to its one kernel region. Four stretches of host operations come first (the
  neighbour sum over the edges, the two affine layers, each followed by a rectifier): when the region is entered
  every buffer holds what those operations leave, `V`, and none of them writes an argument array, so the seven
  arguments are found as launched. The embedding `h` is the buffer the last rectifier writes; both input windows
  of the region read it.
-/
import proofs.«165384_j90950227460159_1_alg».proof.Proof.Gen.KernelIdeal.Launch
import Idealize.ShloMosaic.Lib.Pipeline.Frame

noncomputable section

namespace Cert.KernelIdeal.Entry

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the region is entered: the launch contents after the four stretches of host operations. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program up to the region: the four stretches, run in order, reach the region holding every unscoped buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes buffer `b` when `b` is none of the thirty-six buffers they write. -/
theorem V_of_not_written (c : Dev nD) (b : Ref sig .tc)
    (h : (List.flatten [hostOps0 (F := F), hostOps0_1, hostOps0_2, hostOps0_3]).Forall fun op => Proc.devRef .tc b ∉ op.writes) :
    V m c b = m ((c : Thread nD τ).loc b) :=
  StableHlo.after_of_forall_not_mem (b := Proc.devRef .tc b) _ _ (List.forall_iff_forall_mem.mp h)

end Cert.KernelIdeal.Entry

end
-- ==== Proof.Body.lean ====
/-
  The kernel body at one grid point. The grid is 8 × 8; at point (i, j) the first input window holds band i of the
  embedding (rows 2048·i … 2048·i + 2047), the second band j, and the body stores into the output window the
  2048 × 2048 tile computed from the two bands. The first window's index depends on i alone, so it is fetched once
  every eight points and found in place in between; the second is fetched at every point; the output is written back
  at every point. Both input windows read ONE array, the embedding: each holds half of it, which is enough to read.
-/
import proofs.«165384_j90950227460159_1_alg».proof.Proof.Entry
import proofs.«165384_j90950227460159_1_alg».proof.Proof.Gen.KernelIdeal.Skeleton
import proofs.«165384_j90950227460159_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's buffer holds its band at every point, fetched there or not: where it is not fetched the
    band index has not moved and the body left the band in place. -/
theorem band0_found {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input window's buffer likewise holds its band at every point. -/
theorem band1_found {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The tile the body leaves -/

/-- A whole band: the one rectangle the body loads each input through. -/
abbrev rBand : Rect S2048x16 := Rect.unit (s := S2048x16) ![0, 0] S2048x16.size inb_S2048x16_S2048x16_0_0
/-- A whole tile: the one rectangle the body stores through. -/
abbrev rTile : Rect S2048x2048 := Rect.unit (s := S2048x2048) ![0, 0] S2048x2048.size inb_S2048x2048_S2048x2048_0_0

/-- The output window's buffer after the body, from the two bands: its one store, of the product of the first band
    with the transposed second. -/
def tile (x0 : Vec F S2048x16 .f32) (x1 : Vec F S2048x16 .f32) : Vec F S2048x2048 .f32 :=
  View.canon [⟨rTile, k0_pay1 (View.ld x0 rBand) (View.ld x1 rBand)⟩]

/-- The one store covers the buffer. -/
theorem tile_cover (p0 : Vec F S2048x2048 .f32) (y : S2048x2048.Idx) :
    ∃ pc ∈ ([⟨rTile, p0⟩] : List (View.Piece (Elt F) S2048x2048 .f32)), y ∈ pc.1.set :=
  View.cover_of_tiled [⟨rTile, p0⟩] S2048x2048.size (by rfl) y

/-! ## The body's triple -/

set_option maxHeartbeats 1000000 in
/-- The body on whole staging memrefs, the inputs' at contents `x0`, `x1` and the output's at anything, runs to the
    continuation holding the inputs' as they were and the output's at `tile x0 x1`. (It also loads the output buffer
    before storing; the value is not used.) -/
theorem sound_kernel (c : Dev nD) (E : Set ℕ) (i : grid0.Coords) (arg2 : Memref sig .tc .vmem S2048x16 .f32) (harg2 : arg2.IsWhole) (arg3 : Memref sig .tc .vmem S2048x16 .f32) (harg3 : arg3.IsWhole) (arg4 : Memref sig .tc .vmem S2048x2048 .f32) (harg4 : arg4.IsWhole)
    (x0 : Vec F S2048x16 .f32) (x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__pairwise_kernel i arg2 harg2 arg3 harg3 arg4 harg4) K := by
  simp only [cc0__pairwise_kernel_eq_skeleton]; unfold cc0__pairwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The proof data on core `c`: the arrays as the region finds them; after the body at point `t` each input's buffer
    at its band and the output's at the tile of the two bands; the invariant the scoped buffers the pipeline does not
    stage (there are none); nothing owed; the embedding's array split in halves between the two windows that read it,
    the result's array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  band0_found m (dats m 0 c) (A_eq m c 0) (after0_0 m c) t d
theorem before0_1 (c : Dev nD) (t : Fin cfg0.N) (d) : (dats m 0 c).before 1 t d = iblk m c 1 t :=
  band1_found m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their bands, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.Region.lean ====
/-
  The whole run of the kernel's program. The region's two input windows read one array, the embedding; the
  launch hands the region that array whole, and it is split in two halves, one per window (reading needs only a part
  of an array; the output's array, written back tile by tile, is held whole). With the body's obligation at every one
  of the 64 grid points this gives the run: every weakly fair execution ends, the result array holds what the 64
  write-backs made of it, and every other unscoped buffer, the seven arguments among them, holds what the region
  found there, which for an argument is its launch contents.
-/
import proofs.«165384_j90950227460159_1_alg».proof.Proof.Body
import Idealize.ShloMosaic.Lib.Pipeline.Frame

set_option maxRecDepth 16384

noncomputable section

namespace Cert.KernelIdeal.Region

open Cert.KernelIdeal Cert.KernelIdeal.Gen Cert.KernelIdeal.Entry Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows name two arrays: the embedding (twice) and the result. -/
theorem arrRefs_eq : Finset.univ.image (Pipeline.arrRef spec0) = ({main_v27, main_v28} : Finset (Ref sig .tc)) := by decide

/-- The embedding's array whole and the result's array whole are the three windows' arrays: the embedding's split in
    its two halves, one for each window that reads it. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hbufs : (Pipeline.arrBufs (Ix := Unit) (Name := ℕ) (U := UR sig nD τ) (Lvl := ℕ) spec0 c (V m c) : sProp 𝕄)
      = iprop((((c.tc : Thread nD τ).loc main_v27) ↦{fullShare} V m c main_v27) ∗ (((c.tc : Thread nD τ).loc main_v28) ↦{fullShare} V m c main_v28)) := by
    unfold Pipeline.arrBufs
    rw [arrRefs_eq, bigSep_insert (by decide), bigSep_singleton]; rfl
  have harrs : (dats m 0 c).arrays ((dats m 0 c).arrAt · 0)
      = iprop((((c.tc : Thread nD τ).loc main_v27) ↦{fullShare.left} V m c main_v27) ∗ (((c.tc : Thread nD τ).loc main_v27) ↦{fullShare.right} V m c main_v27)
          ∗ (((c.tc : Thread nD τ).loc main_v28) ↦{fullShare} V m c main_v28)) := by
    unfold Dat.arrays
    rw [bigSep_W0, (arr_whole0 0).set_eq_univ, (arr_whole0 2).set_eq_univ]; rfl
  rw [hbufs, harrs]
  iintro ⟨H27, H28⟩
  ihave H := (pointsTo_share (PosShare.mem_left_op_right fullShare)).1 $$ H27
  icases H with ⟨Hl, Hr⟩
  isplitl [Hl]; · iexact Hl
  isplitl [Hr]; · iexact Hr
  iexact H28

/-! ## The arguments at the region's entry -/

/-- No host operation before the region writes argument 0: the region finds it as launched. -/
theorem V_main_arg0 (c : Dev nD) : V m c main_arg0 = m ((c : Thread nD τ).loc main_arg0) :=
  V_of_not_written m c main_arg0 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 1: the region finds it as launched. -/
theorem V_main_arg1 (c : Dev nD) : V m c main_arg1 = m ((c : Thread nD τ).loc main_arg1) :=
  V_of_not_written m c main_arg1 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 2: the region finds it as launched. -/
theorem V_main_arg2 (c : Dev nD) : V m c main_arg2 = m ((c : Thread nD τ).loc main_arg2) :=
  V_of_not_written m c main_arg2 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 3: the region finds it as launched. -/
theorem V_main_arg3 (c : Dev nD) : V m c main_arg3 = m ((c : Thread nD τ).loc main_arg3) :=
  V_of_not_written m c main_arg3 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 4: the region finds it as launched. -/
theorem V_main_arg4 (c : Dev nD) : V m c main_arg4 = m ((c : Thread nD τ).loc main_arg4) :=
  V_of_not_written m c main_arg4 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 5: the region finds it as launched. -/
theorem V_main_arg5 (c : Dev nD) : V m c main_arg5 = m ((c : Thread nD τ).loc main_arg5) :=
  V_of_not_written m c main_arg5 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))
/-- No host operation before the region writes argument 6: the region finds it as launched. -/
theorem V_main_arg6 (c : Dev nD) : V m c main_arg6 = m ((c : Thread nD τ).loc main_arg6) :=
  V_of_not_written m c main_arg6 (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-! ## The run -/

/-- The invariant between points is the scoped buffers the pipeline does not stage, at every point. -/
theorem inv_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- From any memory with zero counters every weakly fair execution of the program ends; the two arrays the windows
    name end at what the 64 write-backs made of them, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [inv_eq]
      iintro ⟨-, H⟩
      iexact H)
    (hout := fun c => by
      rw [inv_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run, read at the result and at the seven arguments: the result array holds what the write-backs made of it,
    the arguments their launch contents. -/
theorem run_values : θ_run defs (onTc (τ := τ) (main (F := F))) ⟨m, fun _ => 0, ρ⟩ (fun r => ∀ c : Dev nD,
      r.2.mem ((c.tc : Thread nD τ).loc main_v28) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

/-- The frame: the program runs to the end and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_values m ρ)

end Cert.KernelIdeal.Region

end
-- ==== Proof.BlockProduct.lean ====
/-
  One tile of the kernel. The body casts two bands `x`, `y` of 2048 rows of the embedding to the narrower float
  format (the identity on extended reals), transposes the second, and multiplies into a zero accumulator: entry
  (p, q) of the tile is 0 + Σ_k x (p, k) · yᵀ (k, q) = Σ_k x (p, k) · y (q, k).
-/
import proofs.«165384_j90950227460159_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.BlockProduct

open Cert.KernelIdeal Cert.KernelIdeal.Gen Idealize.ShloMosaic Idealize.ShloMosaic.ValueIdx

/-- Along the kept axis of the left operand, the contraction's left index is the output's row. -/
theorem lhs_row (i : S2048x2048.Idx) (c : dot_S2048x16_S16x2048_S2048x2048_1_0_0_1_n_n.contr.Idx) :
    (dot_S2048x16_S16x2048_S2048x2048_1_0_0_1_n_n.lhsIdx i c 0).val = (i 0).val := by
  unfold DotDims.lhsIdx
  rw [dif_neg (show ¬(0 : Fin S2048x16.rank) ∈ dot_S2048x16_S16x2048_S2048x2048_1_0_0_1_n_n.lhsBatch by decide), dif_pos (show (0 : Fin S2048x16.rank) ∈ dot_S2048x16_S16x2048_S2048x2048_1_0_0_1_n_n.lhsNonContracting by decide)]
  rfl

/-- Along the contracted axis of the left operand, the contraction's left index is the summation index. -/
theorem lhs_contr (i : S2048x2048.Idx) (c : dot_S2048x16_S16x2048_S2048x2048_1_0_0_1_n_n.contr.Idx) :
    (dot_S2048x16_S16x2048_S2048x2048_1_0_0_1_n_n.lhsIdx i c 1).val = (c ⟨0, by decide⟩).val :=
  dot_S2048x16_S16x2048_S2048x2048_1_0_0_1_n_n.lhsIdx_val_of_single rfl i c

/-- Along the contracted axis of the right operand, the contraction's right index is the summation index. -/
theorem rhs_contr (i : S2048x2048.Idx) (c : dot_S2048x16_S16x2048_S2048x2048_1_0_0_1_n_n.contr.Idx) :
    (dot_S2048x16_S16x2048_S2048x2048_1_0_0_1_n_n.rhsIdx i c 0).val = (c ⟨0, by decide⟩).val :=
  dot_S2048x16_S16x2048_S2048x2048_1_0_0_1_n_n.rhsIdx_val_of_single rfl i c

/-- Along the kept axis of the right operand, the contraction's right index is the output's column. -/
theorem rhs_col (i : S2048x2048.Idx) (c : dot_S2048x16_S16x2048_S2048x2048_1_0_0_1_n_n.contr.Idx) :
    (dot_S2048x16_S16x2048_S2048x2048_1_0_0_1_n_n.rhsIdx i c 1).val = (i 1).val := by
  unfold DotDims.rhsIdx
  rw [dif_neg (show ¬(1 : Fin S16x2048.rank) ∈ dot_S2048x16_S16x2048_S2048x2048_1_0_0_1_n_n.rhsBatch by decide), dif_pos (show (1 : Fin S16x2048.rank) ∈ dot_S2048x16_S16x2048_S2048x2048_1_0_0_1_n_n.rhsNonContracting by decide)]
  rfl

/-- The product into a zero accumulator, read at entry (p, q): Σ_k a (p, k) · b (k, q). -/
theorem matmul_zero_apply (a : FVec Ideal S2048x16 .bf16) (b : FVec Ideal S16x2048 .bf16) (p q : Fin 2048) :
    matmul (F := Ideal) dot_S2048x16_S16x2048_S2048x2048_1_0_0_1_n_n none a b (constant (F := Ideal) S2048x2048 .f32 0x00000000#32) (ix2 p q)
      = ∑ k : Fin 16, a (ix2 p k) * b (ix2 k q) := by
  refine (Ideal.matmul_constant_zero_apply dot_S2048x16_S16x2048_S2048x2048_1_0_0_1_n_n none a b (ix2 p q)).trans ?_
  rw [← Equiv.sum_comp (ValueIdx.contrEquiv1 dot_S2048x16_S16x2048_S2048x2048_1_0_0_1_n_n 16 rfl rfl).symm]
  refine Finset.sum_congr rfl fun k _ => ?_
  have hk := ValueIdx.contrEquiv1_symm_val dot_S2048x16_S16x2048_S2048x2048_1_0_0_1_n_n 16 rfl rfl k
  have el : dot_S2048x16_S16x2048_S2048x2048_1_0_0_1_n_n.lhsIdx (ix2 p q) ((ValueIdx.contrEquiv1 dot_S2048x16_S16x2048_S2048x2048_1_0_0_1_n_n 16 rfl rfl).symm k) = ix2 p k := funext fun c => Fin.ext (by
    match c with
    | ⟨0, _⟩ => exact lhs_row _ _
    | ⟨1, _⟩ => exact (lhs_contr _ _).trans hk)
  have er : dot_S2048x16_S16x2048_S2048x2048_1_0_0_1_n_n.rhsIdx (ix2 p q) ((ValueIdx.contrEquiv1 dot_S2048x16_S16x2048_S2048x2048_1_0_0_1_n_n 16 rfl rfl).symm k) = ix2 k q := funext fun c => Fin.ext (by
    match c with
    | ⟨0, _⟩ => exact (rhs_contr _ _).trans hk
    | ⟨1, _⟩ => exact rhs_col _ _)
  rw [el, er]

/-- The body's one stored value, read at entry (p, q): the inner product of row p of the first band and row q of the second. -/
theorem pay_apply (x y : FVec Ideal S2048x16 .f32) (p q : Fin 2048) :
    k0_pay1 (F := Ideal) x y (ix2 p q) = ∑ k : Fin 16, x (ix2 p k) * y (ix2 q k) := by
  unfold k0_pay1
  refine (matmul_zero_apply _ _ p q).trans ?_
  refine Finset.sum_congr rfl fun k _ => ?_
  have hx : truncf (F := Ideal) .bf16 (shapeCast S2048x16 x shapeCasts_S2048x16_S2048x16) bitsLt_bf16_f32 (ix2 p k) = x (ix2 p k) := by
    refine (truncf_apply _ bitsLt_bf16_f32 (ix2 p k)).trans ?_
    exact congrFun (shapeCast_self x shapeCasts_S2048x16_S2048x16) (ix2 p k)
  have hy : transpose S16x2048 [1, 0] (truncf (F := Ideal) .bf16 (shapeCast S2048x16 y shapeCasts_S2048x16_S2048x16) bitsLt_bf16_f32)
      transposes_S2048x16_p1_0_S16x2048 (ix2 k q) = y (ix2 q k) := by
    refine (transpose_apply [1, 0] _ transposes_S2048x16_p1_0_S16x2048 (ix2 k q) (ix2 q k) (fun b => match b with
      | ⟨0, _⟩ => rfl
      | ⟨1, _⟩ => rfl)).trans ?_
    refine (truncf_apply _ bitsLt_bf16_f32 (ix2 q k)).trans ?_
    exact congrFun (shapeCast_self y shapeCasts_S2048x16_S2048x16) (ix2 q k)
  exact congrArg₂ (· * ·) hx hy

end Cert.KernelIdeal.BlockProduct

end
-- ==== Proof.GramSpec.lean ====
/-
  The specification. For a node embedding `h` with 16384 rows of 16 features, the pairwise-similarity (Gram)
  matrix has at (r, c) the inner product of rows r and c of `h`:  gram h (r, c) = Σ_k h (r, k) · h (c, k),
  a sum of sixteen products of extended reals. Both programs compute this matrix of the same `h`: one as the
  product of `h` with its transpose, the other tile by tile, a 2048 × 2048 tile from two bands of 2048 rows.
-/
import Idealize.ShloMosaic.PureOps.Ideal
import Idealize.ShloMosaic.Lib.ValueIdx

noncomputable section

open scoped BigOperators

namespace Cert.Gram

open Idealize.ShloMosaic Idealize.ShloMosaic.ValueIdx

/-- The embedding's shape: 16384 nodes, 16 features. -/
abbrev SNxD : Shape := ⟨2, ![16384, 16]⟩
/-- The similarity matrix's shape. -/
abbrev SNxN : Shape := ⟨2, ![16384, 16384]⟩

/-- The row of the embedding an entry's first coordinate names. -/
abbrev row (i : SNxN.Idx) : Fin 16384 := ⟨(i 0).val, (i 0).isLt⟩
/-- The row of the embedding an entry's second coordinate names. -/
abbrev col (i : SNxN.Idx) : Fin 16384 := ⟨(i 1).val, (i 1).isLt⟩

/-- Entry (r, c) of the Gram matrix of `h`: the inner product of rows r and c. -/
def gram (h : SNxD.Idx → EReal) : SNxN.Idx → EReal :=
  fun i => ∑ k : Fin 16, h (ix2 (row i) k) * h (ix2 (col i) k)

theorem gram_apply (h : SNxD.Idx → EReal) (i : SNxN.Idx) :
    gram h i = ∑ k : Fin 16, h (ix2 (row i) k) * h (ix2 (col i) k) := rfl

end Cert.Gram

end
-- ==== Proof.GramBlocks.lean ====
/-
  From tiles to the matrix. At grid point (i, j) the kernel writes back the 2048 × 2048 tile at block (i, j) of the
  result; its entry (p, q) is the inner product of row p of band i and row q of band j of the embedding `h`, that is
  of rows 2048·i + p and 2048·j + q of `h`: entry (2048·i + p, 2048·j + q) of the Gram matrix of `h`. The 64 tiles
  cover the 16384 × 16384 result (entry (r, c) lies in tile (r / 2048, c / 2048)), so the result array ends holding
  the Gram matrix of the embedding the region found.
-/
import proofs.«165384_j90950227460159_1_alg».proof.Proof.Body
import proofs.«165384_j90950227460159_1_alg».proof.Proof.BlockProduct
import proofs.«165384_j90950227460159_1_alg».proof.Proof.GramSpec
import Idealize.ShloMosaic.Lib.Pipeline.Value
import Idealize.ShloMosaic.Lib.ValueIdx

set_option maxRecDepth 16384

noncomputable section

open scoped BigOperators

namespace Cert.KernelIdeal.GramBlocks

open Cert.KernelIdeal Cert.KernelIdeal.Gen Cert.KernelIdeal.Entry Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem off_zero : (![0, 0] : Fin 2 → Nat) = fun _ => 0 := funext fun a => by fin_cases a <;> rfl

/-- The index maps over the grid: the first input's band is the tile's row of blocks, the second input's band the
    tile's column of blocks, both inputs take all sixteen features, and a tile's block indices are below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile of the 8 × 8 arrangement is some grid point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The embedding as the region finds it. -/
abbrev emb (c : Dev nD) : Cert.Gram.SNxD.Idx → EReal := V m c main_v27

/-- What point `t` writes back is block `t` of the Gram matrix of the embedding. -/
theorem flushed_eq (c : Dev nD) (t : Fin cfg0.N) :
    (dats m 0 c).flushed 2 t = ((cfg0.win 2).blk t).view.read (Elt Ideal) (Cert.Gram.gram (emb m c)) := by
  show (cfg0.win 2).cut (grid0.coords t) ((dats m 0 c).after 2 t) = _
  rw [after0_2]
  unfold tile
  rw [View.canon_unit_zero off_zero]
  simp only [View.ld_unit_zero (S := S2048x16) off_zero]
  obtain ⟨e0, e1, e2, e3, e4, e5⟩ := idx_facts t
  funext j
  have hj0 : (j 0).val < 2048 := (j 0).isLt
  have hj1 : (j 1).val < 2048 := (j 1).isLt
  -- the entry of the tile, by its two coordinates
  have hx : (cfg0.win 2).xinj (grid0.coords t) j = ix2 (⟨(j 0).val, hj0⟩ : Fin 2048) (⟨(j 1).val, hj1⟩ : Fin 2048) :=
    funext fun a => match a with
      | ⟨0, _⟩ => rfl
      | ⟨1, _⟩ => rfl
  refine (congrArg (k0_pay1 (F := Ideal) (iblk m c 0 t) (iblk m c 1 t)) hx).trans ?_
  refine (BlockProduct.pay_apply (iblk m c 0 t) (iblk m c 1 t) ⟨(j 0).val, hj0⟩ ⟨(j 1).val, hj1⟩).trans ?_
  refine Eq.trans ?_ (Cert.Gram.gram_apply (emb m c) (((cfg0.win 2).blk t).view.emb j)).symm
  refine Finset.sum_congr rfl fun k _ => ?_
  -- row p of the first band is row 2048·i + p of the embedding: the row of the entry the tile's (p, q) lands on
  have hA : ((cfg0.win 0).blk t).view.emb (ix2 (⟨(j 0).val, hj0⟩ : Fin 2048) k) = ix2 (Cert.Gram.row (((cfg0.win 2).blk t).view.emb j)) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 16 + 1 * k.val = k.val; omega
  -- row q of the second band is row 2048·j + q of the embedding: the column of that entry
  have hB : ((cfg0.win 1).blk t).view.emb (ix2 (⟨(j 1).val, hj1⟩ : Fin 2048) k) = ix2 (Cert.Gram.col (((cfg0.win 2).blk t).view.emb j)) k := by
    funext a; apply Fin.ext
    match a with
    | ⟨0, _⟩ => show win0_1.index t (0 : Fin 2) * 2048 + 1 * (j 1).val = win0_2.index t (1 : Fin 2) * 2048 + 1 * (j 1).val; omega
    | ⟨1, _⟩ => show win0_1.index t (1 : Fin 2) * 16 + 1 * k.val = k.val; omega
  exact congrArg₂ (· * ·) (congrArg (V m c main_v27) hA) (congrArg (V m c main_v27) hB)

/-- An entry of the result is in point `t`'s tile iff each coordinate is in the tile's range on its axis. -/
theorem mem_tile (t : Fin cfg0.N) (i : S16384x16384.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v28).slice (win0_2.rect t)).set ↔ _
  rw [View.set_slice_whole, Rect.mem_set_unit]
  exact Iff.rfl

/-- The result array after the run is the Gram matrix of the embedding: the 64 tiles cover it, entry (r, c) lying in
    tile (r / 2048, c / 2048). -/
theorem final (c : Dev nD) : (dats m 0 c).arrAt 2 cfg0.N = Cert.Gram.gram (emb m c) :=
  (dats m 0 c).arrAt_eq_of_cover 2 (Cert.Gram.gram (emb m c)) (fun t _ => flushed_eq m c t) fun i => by
    have hi0 : (i 0).val < 16384 := (i 0).isLt
    have hi1 : (i 1).val < 16384 := (i 1).isLt
    obtain ⟨t, ht⟩ := idx_onto ⟨(i 0).val / 2048, by omega⟩ ⟨(i 1).val / 2048, by omega⟩
    have q0 : win0_2.index t (0 : Fin 2) = (i 0).val / 2048 := congrFun ht 0
    have q1 : win0_2.index t (1 : Fin 2) = (i 1).val / 2048 := congrFun ht 1
    refine ⟨t, flush0_2 t, ?_⟩
    rw [mem_tile]
    intro a
    match a with
    | ⟨0, _⟩ => show win0_2.index t (0 : Fin 2) * 2048 ≤ (i 0).val ∧ (i 0).val < win0_2.index t (0 : Fin 2) * 2048 + 2048; omega
    | ⟨1, _⟩ => show win0_2.index t (1 : Fin 2) * 2048 ≤ (i 1).val ∧ (i 1).val < win0_2.index t (1 : Fin 2) * 2048 + 2048; omega

end Cert.KernelIdeal.GramBlocks

end
-- ==== Proof.HostChain.lean ====
/-
  The embedding is one function of the arguments in both programs. The kernel's program and the reference apply the
  same thirty-six host operations (neighbour sum over the edges, two affine layers with rectifiers) to the same seven
  arguments, so the buffer the region's input windows read holds the reference's embedding stage of the launch
  contents. The chain is carried as one function and never opened.
-/
import proofs.«165384_j90950227460159_1_alg».proof.Proof.Entry
import proofs.«165384_j90950227460159_1_alg».proof.Proof.Gen.ReferenceIdeal.Read

noncomputable section

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]

set_option maxHeartbeats 2000000 in
/-- The embedding the region finds is the reference's embedding stage of the arguments as launched. -/
theorem entry_embedding (m : (ℓ : Loc nD τ sig) → Buf (Elt F) ℓ) (c : Dev nD) :
    Cert.KernelIdeal.Entry.V m c main_v27
      = Cert.ReferenceIdeal.Read.val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  -- The four stretches are one list of thirty-six operations applied in order to the launch contents.
  show StableHlo.after (List.flatten [hostOps0, hostOps0_1, hostOps0_2, hostOps0_3]) (fun b => m (c, b)) (Proc.devRef .tc main_v27) = _
  simp only [hostOps0, hostOps0_1, hostOps0_2, hostOps0_3, List.flatten_cons, List.flatten_nil, List.append_nil, List.cons_append, List.nil_append]
  -- Each operation's result buffer holds its function of its operands' buffers; every other buffer is unchanged.
  after_results_simp
  -- What is left is the operations' composed term of the seven arguments, which is the reference's stage by definition.
  rfl

end Cert.KernelIdeal.HostChain

end
-- ==== Proof.RefValue.lean ====
/-
  The reference's value. Its last two host operations are the transpose of the node embedding `h` and the
  product `h · hᵀ`: entry (r, c) of the result is Σ_k h (r, k) · hᵀ (k, c) = Σ_k h (r, k) · h (c, k), the
  Gram matrix of `h`.
-/
import proofs.«165384_j90950227460159_1_alg».proof.Proof.Gen.ReferenceIdeal.Run
import proofs.«165384_j90950227460159_1_alg».proof.Proof.Gen.ReferenceIdeal.Read
import proofs.«165384_j90950227460159_1_alg».proof.Proof.GramSpec

noncomputable section

open scoped BigOperators

namespace Cert.ReferenceIdeal.RefValue

open Cert.ReferenceIdeal Cert.ReferenceIdeal.Read Idealize.ShloMosaic Idealize.ShloMosaic.ValueIdx

/-- The left operand's index at output entry `i` and contraction position `k` is (row of `i`, `k`). -/
theorem lidx_eq (i : S16384x16384.Idx) (k : Fin 16) :
    lidx_main_v29 i k = ix2 (Cert.Gram.row i) k :=
  funext fun a => match a with
    | ⟨0, _⟩ => rfl
    | ⟨1, _⟩ => rfl

/-- The right operand is the transpose, so its index (`k`, column of `i`) reads the embedding at (column of `i`, `k`). -/
theorem ridx_eq (i : S16384x16384.Idx) (k : Fin 16) :
    idx_main_v28 (ridx_main_v29 i k) = ix2 (Cert.Gram.col i) k :=
  funext fun a => match a with
    | ⟨0, _⟩ => rfl
    | ⟨1, _⟩ => rfl

/-- The reference's result, as a function of the seven arguments, is the Gram matrix of its embedding stage. -/
theorem ref_is_gram (x0 : (⟨S16384x3, .f32⟩ : BufTy).Contents (Elt Ideal)) (x1 : (⟨S2x524288, .i32⟩ : BufTy).Contents (Elt Ideal)) (x2 : (⟨S3x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) :
    val_main_v29 (F := Ideal) x0 x1 x2 x3 x4 x5 x6 = Cert.Gram.gram (val_main_v27 (F := Ideal) x0 x1 x2 x3 x4 x5 x6) := by
  funext i
  refine (val_main_v29_apply x0 x1 x2 x3 x4 x5 x6 i).trans ?_
  refine Eq.trans ?_ (Cert.Gram.gram_apply _ i).symm
  refine Finset.sum_congr rfl fun k _ => ?_
  have e28 := val_main_v28_apply (F := Ideal) x0 x1 x2 x3 x4 x5 x6 (ridx_main_v29 i k)
  generalize val_main_v28 (F := Ideal) x0 x1 x2 x3 x4 x5 x6 = t at e28 ⊢
  generalize val_main_v27 (F := Ideal) x0 x1 x2 x3 x4 x5 x6 = h at e28 ⊢
  rw [e28, lidx_eq i k, ridx_eq i k]

end Cert.ReferenceIdeal.RefValue

end
-- ==== Proof.lean ====
/-
  The certificate. A graph layer computes a node embedding `h` (16384 nodes, 16 features: the neighbour sum over the
  edges, then two affine layers each followed by a rectifier) and returns the pairwise similarities `h · hᵀ`. The
  reference multiplies `h` by its transpose; the kernel computes the same embedding by the same host operations and
  then fills the 16384 × 16384 result tile by tile on an 8 × 8 grid, tile (i, j) being the product of band i of `h`
  with the transposed band j, the bands cast to a narrower float format first. On extended reals the cast is the
  identity, so entry (r, c) of either result is Σ_k h (r, k) · h (c, k): the Gram matrix of `h`. No algebraic law
  beyond reading both sums at an index is needed, so the precondition (finite inputs) is never opened.

  The three frames: each program runs to the end and leaves its seven arguments unchanged. For the two kernel programs
  this is the run of the region over its 64 grid points, the embedding's array shared in halves by the two input
  windows that read it; for the reference it is its run with the result dropped. The idealization rewrote nothing, so
  there is nothing to preserve.
-/
import proofs.«165384_j90950227460159_1_alg».proof.Defs
import proofs.«165384_j90950227460159_1_alg».proof.Proof.Gen.Kernel
import proofs.«165384_j90950227460159_1_alg».proof.Proof.Gen.KernelIdeal
import proofs.«165384_j90950227460159_1_alg».proof.Proof.Gen.ReferenceIdeal
import proofs.«165384_j90950227460159_1_alg».proof.Proof.Gen.Pre_finite_inputs
import proofs.«165384_j90950227460159_1_alg».proof.Proof.Gen.ReferenceIdeal.Run
import proofs.«165384_j90950227460159_1_alg».proof.Proof.Gen.ReferenceIdeal.Read
import proofs.«165384_j90950227460159_1_alg».proof.Proof.BitsRegion
import proofs.«165384_j90950227460159_1_alg».proof.Proof.Region
import proofs.«165384_j90950227460159_1_alg».proof.Proof.GramBlocks
import proofs.«165384_j90950227460159_1_alg».proof.Proof.HostChain
import proofs.«165384_j90950227460159_1_alg».proof.Proof.RefValue
import Idealize.ShloMosaic.Adequacy
import Idealize.ShloMosaic.Init

noncomputable section

namespace Cert.Proof

open Idealize.ShloMosaic Idealize.ShloMosaic.TcCoe Idealize.SL.Sem

/-- The embedding of the arguments core `c` holds in the memory `m`: the reference's embedding stage of them. -/
abbrev embOf (m : (ℓ : Loc Cert.KernelIdeal.nD Cert.KernelIdeal.τ Cert.KernelIdeal.sig) → Buf (Elt Ideal) ℓ) (c : Dev Cert.KernelIdeal.nD) :=
  Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

theorem frame_kernel : Cert.frame_Kernel :=
  fun m ρ _ => Cert.Kernel.Region.frame m ρ

theorem frame_kernelIdeal : Cert.frame_KernelIdeal :=
  fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealized kernel's run, its result named: the Gram matrix of the embedding of the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28) = Cert.Gram.gram (embOf m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c =>
      ⟨((h c).1.trans (Cert.KernelIdeal.GramBlocks.final m c)).trans (congrArg Cert.Gram.gram (Cert.KernelIdeal.HostChain.entry_embedding m c)), (h c).2⟩)
    (Cert.KernelIdeal.Region.run_values (F := Ideal) m ρ)

/-- Both idealized programs, from memories agreeing on the arguments, end with the Gram matrix of the same embedding. -/
theorem algebraic : Cert.algebraic_KernelIdeal_ReferenceIdeal := by
  intro m ρ m' ρ' _ hagree
  refine ⟨fun c => Cert.Gram.gram (embOf m c), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v29_eq, Cert.ReferenceIdeal.RefValue.ref_is_gram, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
